-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x131072 : Shape := ⟨2, ![10, 131072]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S10x2048 : Shape := ⟨2, ![10, 2048]⟩
abbrev S2048x128 : Shape := ⟨2, ![2048, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x131072, .f32⟩
  | .hbm, ⟨4, _⟩ => ⟨S10x128, .f32⟩
  | .hbm, ⟨5, _⟩ => ⟨S10x128x1, .f32⟩
  | .hbm, ⟨6, _⟩ => ⟨S10x128x128, .f32⟩
  | .hbm, ⟨7, _⟩ => ⟨S1280x128, .f32⟩
  | .hbm, ⟨8, _⟩ => ⟨S131072x128, .f32⟩
  | .local _ .vmem, ⟨0, _⟩ => ⟨S10x2048, .f32⟩
  | .local _ .vmem, ⟨1, _⟩ => ⟨S10x2048, .f32⟩
  | .local _ .vmem, ⟨2, _⟩ => ⟨S1280x128, .f32⟩
  | .local _ .vmem, ⟨3, _⟩ => ⟨S128x128, .f32⟩
  | .local _ .vmem, ⟨4, _⟩ => ⟨S2048x128, .f32⟩
  | .local _ .vmem, ⟨5, _⟩ => ⟨S2048x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S131072x10_S10x131072_1_0 : S131072x10.Transposes [1, 0] S10x131072
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S10x2048_S1x128_0_0 : ∀ a, (![0, 0] : Fin 2 → Nat) a + S1x128.size a ≤ S10x2048.size a
  h_S1x128 : 0 < S1x128.numel
  shapeCasts_S1x128_S1x128 : S1x128.ShapeCasts S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  inb_S10x2048_S1x128_1_0 : ∀ a, (![1, 0] : Fin 2 → Nat) a + S1x128.size a ≤ S10x2048.size a
  inb_S1280x128_S128x128_128_0 : ∀ a, (![128, 0] : Fin 2 → Nat) a + S128x128.size a ≤ S1280x128.size a
  inb_S10x2048_S1x128_2_0 : ∀ a, (![2, 0] : Fin 2 → Nat) a + S1x128.size a ≤ S10x2048.size a
  inb_S1280x128_S128x128_256_0 : ∀ a, (![256, 0] : Fin 2 → Nat) a + S128x128.size a ≤ S1280x128.size a
  inb_S10x2048_S1x128_3_0 : ∀ a, (![3, 0] : Fin 2 → Nat) a + S1x128.size a ≤ S10x2048.size a
  inb_S1280x128_S128x128_384_0 : ∀ a, (![384, 0] : Fin 2 → Nat) a + S128x128.size a ≤ S1280x128.size a
  inb_S10x2048_S1x128_4_0 : ∀ a, (![4, 0] : Fin 2 → Nat) a + S1x128.size a ≤ S10x2048.size a
  inb_S1280x128_S128x128_512_0 : ∀ a, (![512, 0] : Fin 2 → Nat) a + S128x128.size a ≤ S1280x128.size a
  inb_S10x2048_S1x128_5_0 : ∀ a, (![5, 0] : Fin 2 → Nat) a + S1x128.size a ≤ S10x2048.size a
  inb_S1280x128_S128x128_640_0 : ∀ a, (![640, 0] : Fin 2 → Nat) a + S128x128.size a ≤ S1280x128.size a
  inb_S10x2048_S1x128_6_0 : ∀ a, (![6, 0] : Fin 2 → Nat) a + S1x128.size a ≤ S10x2048.size a
  inb_S1280x128_S128x128_768_0 : ∀ a, (![768, 0] : Fin 2 → Nat) a + S128x128.size a ≤ S1280x128.size a
  inb_S10x2048_S1x128_7_0 : ∀ a, (![7, 0] : Fin 2 → Nat) a + S1x128.size a ≤ S10x2048.size a
  inb_S1280x128_S128x128_896_0 : ∀ a, (![896, 0] : Fin 2 → Nat) a + S128x128.size a ≤ S1280x128.size a
  inb_S10x2048_S1x128_8_0 : ∀ a, (![8, 0] : Fin 2 → Nat) a + S1x128.size a ≤ S10x2048.size a
  inb_S1280x128_S128x128_1024_0 : ∀ a, (![1024, 0] : Fin 2 → Nat) a + S128x128.size a ≤ S1280x128.size a
  inb_S10x2048_S1x128_9_0 : ∀ a, (![9, 0] : Fin 2 → Nat) a + S1x128.size a ≤ S10x2048.size a
  inb_S1280x128_S128x128_1152_0 : ∀ a, (![1152, 0] : Fin 2 → Nat) a + S128x128.size a ≤ S1280x128.size a
  inb_S2048x128_S128x128_0_0 : ∀ a, (![0, 0] : Fin 2 → Nat) a + S128x128.size a ≤ S2048x128.size a
  inb_S10x2048_S1x128_0_128 : ∀ a, (![0, 128] : Fin 2 → Nat) a + S1x128.size a ≤ S10x2048.size a
  inb_S10x2048_S1x128_1_128 : ∀ a, (![1, 128] : Fin 2 → Nat) a + S1x128.size a ≤ S10x2048.size a
  inb_S10x2048_S1x128_2_128 : ∀ a, (![2, 128] : Fin 2 → Nat) a + S1x128.size a ≤ S10x2048.size a
  inb_S10x2048_S1x128_3_128 : ∀ a, (![3, 128] : Fin 2 → Nat) a + S1x128.size a ≤ S10x2048.size a
  inb_S10x2048_S1x128_4_128 : ∀ a, (![4, 128] : Fin 2 → Nat) a + S1x128.size a ≤ S10x2048.size a
  inb_S10x2048_S1x128_5_128 : ∀ a, (![5, 128] : Fin 2 → Nat) a + S1x128.size a ≤ S10x2048.size a
  inb_S10x2048_S1x128_6_128 : ∀ a, (![6, 128] : Fin 2 → Nat) a + S1x128.size a ≤ S10x2048.size a
  inb_S10x2048_S1x128_7_128 : ∀ a, (![7, 128] : Fin 2 → Nat) a + S1x128.size a ≤ S10x2048.size a
  inb_S10x2048_S1x128_8_128 : ∀ a, (![8, 128] : Fin 2 → Nat) a + S1x128.size a ≤ S10x2048.size a
  inb_S10x2048_S1x128_9_128 : ∀ a, (![9, 128] : Fin 2 → Nat) a + S1x128.size a ≤ S10x2048.size a
  inb_S2048x128_S128x128_128_0 : ∀ a, (![128, 0] : Fin 2 → Nat) a + S128x128.size a ≤ S2048x128.size a
  inb_S10x2048_S1x128_0_256 : ∀ a, (![0, 256] : Fin 2 → Nat) a + S1x128.size a ≤ S10x2048.size a
  inb_S10x2048_S1x128_1_256 : ∀ a, (![1, 256] : Fin 2 → Nat) a + S1x128.size a ≤ S10x2048.size a
  inb_S10x2048_S1x128_2_256 : ∀ a, (![2, 256] : Fin 2 → Nat) a + S1x128.size a ≤ S10x2048.size a
  inb_S10x2048_S1x128_3_256 : ∀ a, (![3, 256] : Fin 2 → Nat) a + S1x128.size a ≤ S10x2048.size a
  inb_S10x2048_S1x128_4_256 : ∀ a, (![4, 256] : Fin 2 → Nat) a + S1x128.size a ≤ S10x2048.size a
  inb_S10x2048_S1x128_5_256 : ∀ a, (![5, 256] : Fin 2 → Nat) a + S1x128.size a ≤ S10x2048.size a
  inb_S10x2048_S1x128_6_256 : ∀ a, (![6, 256] : Fin 2 → Nat) a + S1x128.size a ≤ S10x2048.size a
  inb_S10x2048_S1x128_7_256 : ∀ a, (![7, 256] : Fin 2 → Nat) a + S1x128.size a ≤ S10x2048.size a
  inb_S10x2048_S1x128_8_256 : ∀ a, (![8, 256] : Fin 2 → Nat) a + S1x128.size a ≤ S10x2048.size a
  inb_S10x2048_S1x128_9_256 : ∀ a, (![9, 256] : Fin 2 → Nat) a + S1x128.size a ≤ S10x2048.size a
  inb_S2048x128_S128x128_256_0 : ∀ a, (![256, 0] : Fin 2 → Nat) a + S128x128.size a ≤ S2048x128.size a
  inb_S10x2048_S1x128_0_384 : ∀ a, (![0, 384] : Fin 2 → Nat) a + S1x128.size a ≤ S10x2048.size a
  inb_S10x2048_S1x128_1_384 : ∀ a, (![1, 384] : Fin 2 → Nat) a + S1x128.size a ≤ S10x2048.size a
  inb_S10x2048_S1x128_2_384 : ∀ a, (![2, 384] : Fin 2 → Nat) a + S1x128.size a ≤ S10x2048.size a
  inb_S10x2048_S1x128_3_384 : ∀ a, (![3, 384] : Fin 2 → Nat) a + S1x128.size a ≤ S10x2048.size a
  inb_S10x2048_S1x128_4_384 : ∀ a, (![4, 384] : Fin 2 → Nat) a + S1x128.size a ≤ S10x2048.size a
  inb_S10x2048_S1x128_5_384 : ∀ a, (![5, 384] : Fin 2 → Nat) a + S1x128.size a ≤ S10x2048.size a
  inb_S10x2048_S1x128_6_384 : ∀ a, (![6, 384] : Fin 2 → Nat) a + S1x128.size a ≤ S10x2048.size a
  inb_S10x2048_S1x128_7_384 : ∀ a, (![7, 384] : Fin 2 → Nat) a + S1x128.size a ≤ S10x2048.size a
  inb_S10x2048_S1x128_8_384 : ∀ a, (![8, 384] : Fin 2 → Nat) a + S1x128.size a ≤ S10x2048.size a
  inb_S10x2048_S1x128_9_384 : ∀ a, (![9, 384] : Fin 2 → Nat) a + S1x128.size a ≤ S10x2048.size a
  inb_S2048x128_S128x128_384_0 : ∀ a, (![384, 0] : Fin 2 → Nat) a + S128x128.size a ≤ S2048x128.size a
  inb_S10x2048_S1x128_0_512 : ∀ a, (![0, 512] : Fin 2 → Nat) a + S1x128.size a ≤ S10x2048.size a
  inb_S10x2048_S1x128_1_512 : ∀ a, (![1, 512] : Fin 2 → Nat) a + S1x128.size a ≤ S10x2048.size a
  inb_S10x2048_S1x128_2_512 : ∀ a, (![2, 512] : Fin 2 → Nat) a + S1x128.size a ≤ S10x2048.size a
  inb_S10x2048_S1x128_3_512 : ∀ a, (![3, 512] : Fin 2 → Nat) a + S1x128.size a ≤ S10x2048.size a
  inb_S10x2048_S1x128_4_512 : ∀ a, (![4, 512] : Fin 2 → Nat) a + S1x128.size a ≤ S10x2048.size a
  inb_S10x2048_S1x128_5_512 : ∀ a, (![5, 512] : Fin 2 → Nat) a + S1x128.size a ≤ S10x2048.size a
  inb_S10x2048_S1x128_6_512 : ∀ a, (![6, 512] : Fin 2 → Nat) a + S1x128.size a ≤ S10x2048.size a
  inb_S10x2048_S1x128_7_512 : ∀ a, (![7, 512] : Fin 2 → Nat) a + S1x128.size a ≤ S10x2048.size a
  inb_S10x2048_S1x128_8_512 : ∀ a, (![8, 512] : Fin 2 → Nat) a + S1x128.size a ≤ S10x2048.size a
  inb_S10x2048_S1x128_9_512 : ∀ a, (![9, 512] : Fin 2 → Nat) a + S1x128.size a ≤ S10x2048.size a
  inb_S2048x128_S128x128_512_0 : ∀ a, (![512, 0] : Fin 2 → Nat) a + S128x128.size a ≤ S2048x128.size a
  inb_S10x2048_S1x128_0_640 : ∀ a, (![0, 640] : Fin 2 → Nat) a + S1x128.size a ≤ S10x2048.size a
  inb_S10x2048_S1x128_1_640 : ∀ a, (![1, 640] : Fin 2 → Nat) a + S1x128.size a ≤ S10x2048.size a
  inb_S10x2048_S1x128_2_640 : ∀ a, (![2, 640] : Fin 2 → Nat) a + S1x128.size a ≤ S10x2048.size a
  inb_S10x2048_S1x128_3_640 : ∀ a, (![3, 640] : Fin 2 → Nat) a + S1x128.size a ≤ S10x2048.size a
  inb_S10x2048_S1x128_4_640 : ∀ a, (![4, 640] : Fin 2 → Nat) a + S1x128.size a ≤ S10x2048.size a
  inb_S10x2048_S1x128_5_640 : ∀ a, (![5, 640] : Fin 2 → Nat) a + S1x128.size a ≤ S10x2048.size a
  inb_S10x2048_S1x128_6_640 : ∀ a, (![6, 640] : Fin 2 → Nat) a + S1x128.size a ≤ S10x2048.size a
  inb_S10x2048_S1x128_7_640 : ∀ a, (![7, 640] : Fin 2 → Nat) a + S1x128.size a ≤ S10x2048.size a
  inb_S10x2048_S1x128_8_640 : ∀ a, (![8, 640] : Fin 2 → Nat) a + S1x128.size a ≤ S10x2048.size a
  inb_S10x2048_S1x128_9_640 : ∀ a, (![9, 640] : Fin 2 → Nat) a + S1x128.size a ≤ S10x2048.size a
  inb_S2048x128_S128x128_640_0 : ∀ a, (![640, 0] : Fin 2 → Nat) a + S128x128.size a ≤ S2048x128.size a
  inb_S10x2048_S1x128_0_768 : ∀ a, (![0, 768] : Fin 2 → Nat) a + S1x128.size a ≤ S10x2048.size a
  inb_S10x2048_S1x128_1_768 : ∀ a, (![1, 768] : Fin 2 → Nat) a + S1x128.size a ≤ S10x2048.size a
  inb_S10x2048_S1x128_2_768 : ∀ a, (![2, 768] : Fin 2 → Nat) a + S1x128.size a ≤ S10x2048.size a
  inb_S10x2048_S1x128_3_768 : ∀ a, (![3, 768] : Fin 2 → Nat) a + S1x128.size a ≤ S10x2048.size a
  inb_S10x2048_S1x128_4_768 : ∀ a, (![4, 768] : Fin 2 → Nat) a + S1x128.size a ≤ S10x2048.size a
  inb_S10x2048_S1x128_5_768 : ∀ a, (![5, 768] : Fin 2 → Nat) a + S1x128.size a ≤ S10x2048.size a
  inb_S10x2048_S1x128_6_768 : ∀ a, (![6, 768] : Fin 2 → Nat) a + S1x128.size a ≤ S10x2048.size a
  inb_S10x2048_S1x128_7_768 : ∀ a, (![7, 768] : Fin 2 → Nat) a + S1x128.size a ≤ S10x2048.size a
  inb_S10x2048_S1x128_8_768 : ∀ a, (![8, 768] : Fin 2 → Nat) a + S1x128.size a ≤ S10x2048.size a
  inb_S10x2048_S1x128_9_768 : ∀ a, (![9, 768] : Fin 2 → Nat) a + S1x128.size a ≤ S10x2048.size a
  inb_S2048x128_S128x128_768_0 : ∀ a, (![768, 0] : Fin 2 → Nat) a + S128x128.size a ≤ S2048x128.size a
  inb_S10x2048_S1x128_0_896 : ∀ a, (![0, 896] : Fin 2 → Nat) a + S1x128.size a ≤ S10x2048.size a
  inb_S10x2048_S1x128_1_896 : ∀ a, (![1, 896] : Fin 2 → Nat) a + S1x128.size a ≤ S10x2048.size a
  inb_S10x2048_S1x128_2_896 : ∀ a, (![2, 896] : Fin 2 → Nat) a + S1x128.size a ≤ S10x2048.size a
  inb_S10x2048_S1x128_3_896 : ∀ a, (![3, 896] : Fin 2 → Nat) a + S1x128.size a ≤ S10x2048.size a
  inb_S10x2048_S1x128_4_896 : ∀ a, (![4, 896] : Fin 2 → Nat) a + S1x128.size a ≤ S10x2048.size a
  inb_S10x2048_S1x128_5_896 : ∀ a, (![5, 896] : Fin 2 → Nat) a + S1x128.size a ≤ S10x2048.size a
  inb_S10x2048_S1x128_6_896 : ∀ a, (![6, 896] : Fin 2 → Nat) a + S1x128.size a ≤ S10x2048.size a
  inb_S10x2048_S1x128_7_896 : ∀ a, (![7, 896] : Fin 2 → Nat) a + S1x128.size a ≤ S10x2048.size a
  inb_S10x2048_S1x128_8_896 : ∀ a, (![8, 896] : Fin 2 → Nat) a + S1x128.size a ≤ S10x2048.size a
  inb_S10x2048_S1x128_9_896 : ∀ a, (![9, 896] : Fin 2 → Nat) a + S1x128.size a ≤ S10x2048.size a
  inb_S2048x128_S128x128_896_0 : ∀ a, (![896, 0] : Fin 2 → Nat) a + S128x128.size a ≤ S2048x128.size a
  inb_S10x2048_S1x128_0_1024 : ∀ a, (![0, 1024] : Fin 2 → Nat) a + S1x128.size a ≤ S10x2048.size a
  inb_S10x2048_S1x128_1_1024 : ∀ a, (![1, 1024] : Fin 2 → Nat) a + S1x128.size a ≤ S10x2048.size a
  inb_S10x2048_S1x128_2_1024 : ∀ a, (![2, 1024] : Fin 2 → Nat) a + S1x128.size a ≤ S10x2048.size a
  inb_S10x2048_S1x128_3_1024 : ∀ a, (![3, 1024] : Fin 2 → Nat) a + S1x128.size a ≤ S10x2048.size a
  inb_S10x2048_S1x128_4_1024 : ∀ a, (![4, 1024] : Fin 2 → Nat) a + S1x128.size a ≤ S10x2048.size a
  inb_S10x2048_S1x128_5_1024 : ∀ a, (![5, 1024] : Fin 2 → Nat) a + S1x128.size a ≤ S10x2048.size a
  inb_S10x2048_S1x128_6_1024 : ∀ a, (![6, 1024] : Fin 2 → Nat) a + S1x128.size a ≤ S10x2048.size a
  inb_S10x2048_S1x128_7_1024 : ∀ a, (![7, 1024] : Fin 2 → Nat) a + S1x128.size a ≤ S10x2048.size a
  inb_S10x2048_S1x128_8_1024 : ∀ a, (![8, 1024] : Fin 2 → Nat) a + S1x128.size a ≤ S10x2048.size a
  inb_S10x2048_S1x128_9_1024 : ∀ a, (![9, 1024] : Fin 2 → Nat) a + S1x128.size a ≤ S10x2048.size a
  inb_S2048x128_S128x128_1024_0 : ∀ a, (![1024, 0] : Fin 2 → Nat) a + S128x128.size a ≤ S2048x128.size a
  inb_S10x2048_S1x128_0_1152 : ∀ a, (![0, 1152] : Fin 2 → Nat) a + S1x128.size a ≤ S10x2048.size a
  inb_S10x2048_S1x128_1_1152 : ∀ a, (![1, 1152] : Fin 2 → Nat) a + S1x128.size a ≤ S10x2048.size a
  inb_S10x2048_S1x128_2_1152 : ∀ a, (![2, 1152] : Fin 2 → Nat) a + S1x128.size a ≤ S10x2048.size a
  inb_S10x2048_S1x128_3_1152 : ∀ a, (![3, 1152] : Fin 2 → Nat) a + S1x128.size a ≤ S10x2048.size a
  inb_S10x2048_S1x128_4_1152 : ∀ a, (![4, 1152] : Fin 2 → Nat) a + S1x128.size a ≤ S10x2048.size a
  inb_S10x2048_S1x128_5_1152 : ∀ a, (![5, 1152] : Fin 2 → Nat) a + S1x128.size a ≤ S10x2048.size a
  inb_S10x2048_S1x128_6_1152 : ∀ a, (![6, 1152] : Fin 2 → Nat) a + S1x128.size a ≤ S10x2048.size a
  inb_S10x2048_S1x128_7_1152 : ∀ a, (![7, 1152] : Fin 2 → Nat) a + S1x128.size a ≤ S10x2048.size a
  inb_S10x2048_S1x128_8_1152 : ∀ a, (![8, 1152] : Fin 2 → Nat) a + S1x128.size a ≤ S10x2048.size a
  inb_S10x2048_S1x128_9_1152 : ∀ a, (![9, 1152] : Fin 2 → Nat) a + S1x128.size a ≤ S10x2048.size a
  inb_S2048x128_S128x128_1152_0 : ∀ a, (![1152, 0] : Fin 2 → Nat) a + S128x128.size a ≤ S2048x128.size a
  inb_S10x2048_S1x128_0_1280 : ∀ a, (![0, 1280] : Fin 2 → Nat) a + S1x128.size a ≤ S10x2048.size a
  inb_S10x2048_S1x128_1_1280 : ∀ a, (![1, 1280] : Fin 2 → Nat) a + S1x128.size a ≤ S10x2048.size a
  inb_S10x2048_S1x128_2_1280 : ∀ a, (![2, 1280] : Fin 2 → Nat) a + S1x128.size a ≤ S10x2048.size a
  inb_S10x2048_S1x128_3_1280 : ∀ a, (![3, 1280] : Fin 2 → Nat) a + S1x128.size a ≤ S10x2048.size a
  inb_S10x2048_S1x128_4_1280 : ∀ a, (![4, 1280] : Fin 2 → Nat) a + S1x128.size a ≤ S10x2048.size a
  inb_S10x2048_S1x128_5_1280 : ∀ a, (![5, 1280] : Fin 2 → Nat) a + S1x128.size a ≤ S10x2048.size a
  inb_S10x2048_S1x128_6_1280 : ∀ a, (![6, 1280] : Fin 2 → Nat) a + S1x128.size a ≤ S10x2048.size a
  inb_S10x2048_S1x128_7_1280 : ∀ a, (![7, 1280] : Fin 2 → Nat) a + S1x128.size a ≤ S10x2048.size a
  inb_S10x2048_S1x128_8_1280 : ∀ a, (![8, 1280] : Fin 2 → Nat) a + S1x128.size a ≤ S10x2048.size a
  inb_S10x2048_S1x128_9_1280 : ∀ a, (![9, 1280] : Fin 2 → Nat) a + S1x128.size a ≤ S10x2048.size a
  inb_S2048x128_S128x128_1280_0 : ∀ a, (![1280, 0] : Fin 2 → Nat) a + S128x128.size a ≤ S2048x128.size a
  inb_S10x2048_S1x128_0_1408 : ∀ a, (![0, 1408] : Fin 2 → Nat) a + S1x128.size a ≤ S10x2048.size a
  inb_S10x2048_S1x128_1_1408 : ∀ a, (![1, 1408] : Fin 2 → Nat) a + S1x128.size a ≤ S10x2048.size a
  inb_S10x2048_S1x128_2_1408 : ∀ a, (![2, 1408] : Fin 2 → Nat) a + S1x128.size a ≤ S10x2048.size a
  inb_S10x2048_S1x128_3_1408 : ∀ a, (![3, 1408] : Fin 2 → Nat) a + S1x128.size a ≤ S10x2048.size a
  inb_S10x2048_S1x128_4_1408 : ∀ a, (![4, 1408] : Fin 2 → Nat) a + S1x128.size a ≤ S10x2048.size a
  inb_S10x2048_S1x128_5_1408 : ∀ a, (![5, 1408] : Fin 2 → Nat) a + S1x128.size a ≤ S10x2048.size a
  inb_S10x2048_S1x128_6_1408 : ∀ a, (![6, 1408] : Fin 2 → Nat) a + S1x128.size a ≤ S10x2048.size a
  inb_S10x2048_S1x128_7_1408 : ∀ a, (![7, 1408] : Fin 2 → Nat) a + S1x128.size a ≤ S10x2048.size a
  inb_S10x2048_S1x128_8_1408 : ∀ a, (![8, 1408] : Fin 2 → Nat) a + S1x128.size a ≤ S10x2048.size a
  inb_S10x2048_S1x128_9_1408 : ∀ a, (![9, 1408] : Fin 2 → Nat) a + S1x128.size a ≤ S10x2048.size a
  inb_S2048x128_S128x128_1408_0 : ∀ a, (![1408, 0] : Fin 2 → Nat) a + S128x128.size a ≤ S2048x128.size a
  inb_S10x2048_S1x128_0_1536 : ∀ a, (![0, 1536] : Fin 2 → Nat) a + S1x128.size a ≤ S10x2048.size a
  inb_S10x2048_S1x128_1_1536 : ∀ a, (![1, 1536] : Fin 2 → Nat) a + S1x128.size a ≤ S10x2048.size a
  inb_S10x2048_S1x128_2_1536 : ∀ a, (![2, 1536] : Fin 2 → Nat) a + S1x128.size a ≤ S10x2048.size a
  inb_S10x2048_S1x128_3_1536 : ∀ a, (![3, 1536] : Fin 2 → Nat) a + S1x128.size a ≤ S10x2048.size a
  inb_S10x2048_S1x128_4_1536 : ∀ a, (![4, 1536] : Fin 2 → Nat) a + S1x128.size a ≤ S10x2048.size a
  inb_S10x2048_S1x128_5_1536 : ∀ a, (![5, 1536] : Fin 2 → Nat) a + S1x128.size a ≤ S10x2048.size a
  inb_S10x2048_S1x128_6_1536 : ∀ a, (![6, 1536] : Fin 2 → Nat) a + S1x128.size a ≤ S10x2048.size a
  inb_S10x2048_S1x128_7_1536 : ∀ a, (![7, 1536] : Fin 2 → Nat) a + S1x128.size a ≤ S10x2048.size a
  inb_S10x2048_S1x128_8_1536 : ∀ a, (![8, 1536] : Fin 2 → Nat) a + S1x128.size a ≤ S10x2048.size a
  inb_S10x2048_S1x128_9_1536 : ∀ a, (![9, 1536] : Fin 2 → Nat) a + S1x128.size a ≤ S10x2048.size a
  inb_S2048x128_S128x128_1536_0 : ∀ a, (![1536, 0] : Fin 2 → Nat) a + S128x128.size a ≤ S2048x128.size a
  inb_S10x2048_S1x128_0_1664 : ∀ a, (![0, 1664] : Fin 2 → Nat) a + S1x128.size a ≤ S10x2048.size a
  inb_S10x2048_S1x128_1_1664 : ∀ a, (![1, 1664] : Fin 2 → Nat) a + S1x128.size a ≤ S10x2048.size a
  inb_S10x2048_S1x128_2_1664 : ∀ a, (![2, 1664] : Fin 2 → Nat) a + S1x128.size a ≤ S10x2048.size a
  inb_S10x2048_S1x128_3_1664 : ∀ a, (![3, 1664] : Fin 2 → Nat) a + S1x128.size a ≤ S10x2048.size a
  inb_S10x2048_S1x128_4_1664 : ∀ a, (![4, 1664] : Fin 2 → Nat) a + S1x128.size a ≤ S10x2048.size a
  inb_S10x2048_S1x128_5_1664 : ∀ a, (![5, 1664] : Fin 2 → Nat) a + S1x128.size a ≤ S10x2048.size a
  inb_S10x2048_S1x128_6_1664 : ∀ a, (![6, 1664] : Fin 2 → Nat) a + S1x128.size a ≤ S10x2048.size a
  inb_S10x2048_S1x128_7_1664 : ∀ a, (![7, 1664] : Fin 2 → Nat) a + S1x128.size a ≤ S10x2048.size a
  inb_S10x2048_S1x128_8_1664 : ∀ a, (![8, 1664] : Fin 2 → Nat) a + S1x128.size a ≤ S10x2048.size a
  inb_S10x2048_S1x128_9_1664 : ∀ a, (![9, 1664] : Fin 2 → Nat) a + S1x128.size a ≤ S10x2048.size a
  inb_S2048x128_S128x128_1664_0 : ∀ a, (![1664, 0] : Fin 2 → Nat) a + S128x128.size a ≤ S2048x128.size a
  inb_S10x2048_S1x128_0_1792 : ∀ a, (![0, 1792] : Fin 2 → Nat) a + S1x128.size a ≤ S10x2048.size a
  inb_S10x2048_S1x128_1_1792 : ∀ a, (![1, 1792] : Fin 2 → Nat) a + S1x128.size a ≤ S10x2048.size a
  inb_S10x2048_S1x128_2_1792 : ∀ a, (![2, 1792] : Fin 2 → Nat) a + S1x128.size a ≤ S10x2048.size a
  inb_S10x2048_S1x128_3_1792 : ∀ a, (![3, 1792] : Fin 2 → Nat) a + S1x128.size a ≤ S10x2048.size a
  inb_S10x2048_S1x128_4_1792 : ∀ a, (![4, 1792] : Fin 2 → Nat) a + S1x128.size a ≤ S10x2048.size a
  inb_S10x2048_S1x128_5_1792 : ∀ a, (![5, 1792] : Fin 2 → Nat) a + S1x128.size a ≤ S10x2048.size a
  inb_S10x2048_S1x128_6_1792 : ∀ a, (![6, 1792] : Fin 2 → Nat) a + S1x128.size a ≤ S10x2048.size a
  inb_S10x2048_S1x128_7_1792 : ∀ a, (![7, 1792] : Fin 2 → Nat) a + S1x128.size a ≤ S10x2048.size a
  inb_S10x2048_S1x128_8_1792 : ∀ a, (![8, 1792] : Fin 2 → Nat) a + S1x128.size a ≤ S10x2048.size a
  inb_S10x2048_S1x128_9_1792 : ∀ a, (![9, 1792] : Fin 2 → Nat) a + S1x128.size a ≤ S10x2048.size a
  inb_S2048x128_S128x128_1792_0 : ∀ a, (![1792, 0] : Fin 2 → Nat) a + S128x128.size a ≤ S2048x128.size a
  inb_S10x2048_S1x128_0_1920 : ∀ a, (![0, 1920] : Fin 2 → Nat) a + S1x128.size a ≤ S10x2048.size a
  inb_S10x2048_S1x128_1_1920 : ∀ a, (![1, 1920] : Fin 2 → Nat) a + S1x128.size a ≤ S10x2048.size a
  inb_S10x2048_S1x128_2_1920 : ∀ a, (![2, 1920] : Fin 2 → Nat) a + S1x128.size a ≤ S10x2048.size a
  inb_S10x2048_S1x128_3_1920 : ∀ a, (![3, 1920] : Fin 2 → Nat) a + S1x128.size a ≤ S10x2048.size a
  inb_S10x2048_S1x128_4_1920 : ∀ a, (![4, 1920] : Fin 2 → Nat) a + S1x128.size a ≤ S10x2048.size a
  inb_S10x2048_S1x128_5_1920 : ∀ a, (![5, 1920] : Fin 2 → Nat) a + S1x128.size a ≤ S10x2048.size a
  inb_S10x2048_S1x128_6_1920 : ∀ a, (![6, 1920] : Fin 2 → Nat) a + S1x128.size a ≤ S10x2048.size a
  inb_S10x2048_S1x128_7_1920 : ∀ a, (![7, 1920] : Fin 2 → Nat) a + S1x128.size a ≤ S10x2048.size a
  inb_S10x2048_S1x128_8_1920 : ∀ a, (![8, 1920] : Fin 2 → Nat) a + S1x128.size a ≤ S10x2048.size a
  inb_S10x2048_S1x128_9_1920 : ∀ a, (![9, 1920] : Fin 2 → Nat) a + S1x128.size a ≤ S10x2048.size a
  inb_S2048x128_S128x128_1920_0 : ∀ a, (![1920, 0] : Fin 2 → Nat) a + S128x128.size a ≤ S2048x128.size a
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x2048.size a ≤ S10x131072.size a
  hwx0_0 : ∀ i : grid0.Coords, EltTy.bits .f32 = 32 ∨ (Rect.block (s := S10x131072) S10x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S10x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.TmkSpec.lean ====
/-
  The value both programs compute, as one function of the three argument arrays, and the two facts about the
  extended reals that let the kernel's arrangement of it meet the reference's.

  For points x[n, ·] and design points p[k, ·] in ten coordinates, and a 128 x 128 matrix c, the result is
      out[n, q] = sum over k of exp(-(sum over d of |x[n, d] - p[k, d]|)) * c[k, q],
  the product Laplace kernel matrix times c. On the extended reals |t| is max t (-t).
-/
import Idealize.ShloMosaic.PureOps.Ideal
import Idealize.ShloMosaic.Lib.ValueIdx

noncomputable section

namespace Cert.Tmk

open Idealize.ShloMosaic Idealize.ShloMosaic.ValueIdx

/-- The absolute value of an extended real, as both programs compute it. -/
abbrev eabs (t : EReal) : EReal := max t (-t)

/-- |a - b| = |b - a| for ALL extended reals: for two reals the differences are negatives of each other; as soon as
    one of the two is infinite each difference is infinite, and the absolute value of either infinity is +inf. -/
theorem eabs_sub_comm (a b : EReal) : eabs (a - b) = eabs (b - a) := by
  induction a using EReal.rec <;> induction b using EReal.rec <;>
    first
    | (show max _ _ = max _ _
       rw [← EReal.coe_sub, ← EReal.coe_sub, ← EReal.coe_neg, ← EReal.coe_neg, neg_sub, neg_sub, max_comm])
    | simp [eabs]

/-- Ten terms added one after the other from the left are their sum over the ten indices. -/
theorem fold10_eq_sum (t : Fin 10 → EReal) :
    t 0 + t 1 + t 2 + t 3 + t 4 + t 5 + t 6 + t 7 + t 8 + t 9 = ∑ d : Fin 10, t d := by
  simp only [Fin.sum_univ_succ, Fin.sum_univ_zero, add_zero, add_assoc]
  rfl

/-- The float pattern of 1.0 denotes the real number 1. -/
theorem ofBits_one : Ideal.ofBits .f32 0x3F800000#32 = 1 := by
  simp [Ideal.ofBits, Ideal.ieee, -EReal.coe_mul]; norm_num

/-- Dividing by 1.0 changes no extended real, the infinities included. -/
theorem div_one (t : EReal) : Ideal.div t (Ideal.ofBits .f32 0x3F800000#32) = t := by
  rw [ofBits_one, ← EReal.coe_one, Ideal.div_coe one_ne_zero, one_div, inv_one, EReal.coe_one, mul_one]

/-- The l1 distance between row `n` of `x` and row `k` of `p`. -/
def dist (x : (⟨2, ![131072, 10]⟩ : Shape).Idx → EReal) (p : (⟨2, ![128, 10]⟩ : Shape).Idx → EReal)
    (n : Fin 131072) (k : Fin 128) : EReal :=
  ∑ d : Fin 10, eabs (x (ix2 n d) - p (ix2 k d))

/-- The result at row `n`, column `q`. -/
def outAt (x : (⟨2, ![131072, 10]⟩ : Shape).Idx → EReal) (p : (⟨2, ![128, 10]⟩ : Shape).Idx → EReal)
    (c : (⟨2, ![128, 128]⟩ : Shape).Idx → EReal) (n : Fin 131072) (q : Fin 128) : EReal :=
  ∑ k : Fin 128, Ideal.exp (-(dist x p n k)) * c (ix2 k q)

/-- The result array. -/
def out (x : (⟨2, ![131072, 10]⟩ : Shape).Idx → EReal) (p : (⟨2, ![128, 10]⟩ : Shape).Idx → EReal)
    (c : (⟨2, ![128, 128]⟩ : Shape).Idx → EReal) : (⟨2, ![131072, 128]⟩ : Shape).Idx → EReal :=
  fun i => outAt x p c (i 0) (i 1)

theorem out_ix2 (x : (⟨2, ![131072, 10]⟩ : Shape).Idx → EReal) (p : (⟨2, ![128, 10]⟩ : Shape).Idx → EReal)
    (c : (⟨2, ![128, 128]⟩ : Shape).Idx → EReal) (n : Fin 131072) (q : Fin 128) :
    out x p c (ix2 n q) = outAt x p c n q := rfl

end Cert.Tmk

end
-- ==== Proof.RefValue.lean ====
/-
  The reference, read one host operation at a time, is the function `Cert.Tmk.out` of its three arguments.

  The reference broadcasts x to [N, 128, 10] and p to [N, 128, 10], subtracts, takes absolute values, sums the last
  axis from 0, negates, divides by 1.0, exponentiates, and multiplies the [N, 128] result into c. Index by index that is
  sum_k exp(-(0 + sum_d |x[n, d] - p[k, d]|) / 1) * c[k, q]: the leading 0 and the division by 1 drop out.
-/
import proofs.«135612_g10067403342211_week1_w1_198_14_alg».proof.Proof.Gen.ReferenceIdeal.Read
import proofs.«135612_g10067403342211_week1_w1_198_14_alg».proof.Proof.TmkSpec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Through the two broadcasts, entry (n, k, d) of the left operand of the subtraction is x[n, d]. -/
theorem idx_x (n : Fin 131072) (q k : Fin 128) (d : Fin 10) :
    idx_main_v0 (idx_main_v2 (idx_main_v6 (lidx_main_v11 (ix2 n q) k) d)) = ix2 n d :=
  funext fun a => Fin.ext (by match a with | ⟨0, _⟩ => rfl | ⟨1, _⟩ => rfl)

/-- Through the two broadcasts, entry (n, k, d) of the right operand is p[k, d]. -/
theorem idx_p (n : Fin 131072) (q k : Fin 128) (d : Fin 10) :
    idx_main_v1 (idx_main_v3 (idx_main_v6 (lidx_main_v11 (ix2 n q) k) d)) = ix2 k d :=
  funext fun a => Fin.ext (by match a with | ⟨0, _⟩ => rfl | ⟨1, _⟩ => rfl)

/-- The right operand of the product at (k, q). -/
theorem idx_c (n : Fin 131072) (q k : Fin 128) : ridx_main_v11 (ix2 n q) k = ix2 k q :=
  funext fun a => Fin.ext (by match a with | ⟨0, _⟩ => rfl | ⟨1, _⟩ => rfl)

/-- The reference's result is `out` of its arguments. -/
theorem ref_eq (x : (⟨S131072x10, .f32⟩ : BufTy).Contents (Elt Ideal)) (p : (⟨S128x10, .f32⟩ : BufTy).Contents (Elt Ideal))
    (c : (⟨S128x128, .f32⟩ : BufTy).Contents (Elt Ideal)) :
    val_main_v11 (F := Ideal) x p c = Cert.Tmk.out x p c := by
  funext i
  obtain ⟨n, q, rfl⟩ : ∃ (n : Fin 131072) (q : Fin 128), i = ix2 n q := ⟨i 0, i 1, eq_ix2 i⟩
  rw [val_main_v11_apply, Cert.Tmk.out_ix2]
  unfold Cert.Tmk.outAt
  refine Finset.sum_congr rfl fun k _ => ?_
  rw [idx_c, val_main_v10_apply, val_main_v9_apply, val_main_v7_apply, val_main_v8_apply, val_main_cst_0_apply,
    val_main_v6_apply, val_main_cst_apply]
  simp only [val_main_v5_apply, val_main_v4_apply, val_main_v2_apply, val_main_v0_apply, val_main_v3_apply,
    val_main_v1_apply, idx_x, idx_p]
  simp only [Ideal.hostUnary_exp_def, Ideal.hostDivf_def, Ideal.hostNegf_def, Ideal.negf_def, Ideal.hostAbsf_def,
    Ideal.absf_def, Ideal.subf_def, Ideal.ofBits_def, Ideal.ofBits_zero_f32, zero_add, Cert.Tmk.div_one]
  rfl

end Cert.ReferenceIdeal.RefValue

end
-- ==== Proof.Chunk.lean ====
/-
  One 128-row chunk of the kernel's output block, as a function of what the body loads for it.

  For each of the ten coordinates d the body loads a row of x^T (1 x 128: the coordinate of the chunk's 128 points) and a
  128 x 128 tile of the lane-replicated table (entry (k, n) the coordinate of design point k, the same in every lane n),
  forms |tile - row| with the row repeated down the 128 sublanes, adds the ten tiles from the left, and contracts
  exp(0 - sum) on its FIRST axis (the design points k) against c. So entry (n, q) of the chunk is
      sum_k exp(-(sum_d |tile_d[k, n] - row_d[0, n]|)) * c[k, q].
-/
import proofs.«135612_g10067403342211_week1_w1_198_14_alg».proof.Proof.Gen.KernelIdeal.Skeleton
import proofs.«135612_g10067403342211_week1_w1_198_14_alg».proof.Proof.TmkSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

section AnyInstance
variable {F : FTy → Type} [FloatOps F]

/-- One coordinate's tile: |table tile - x row repeated down the sublanes|. -/
def term (xr : Vec F S1x128 .f32) (pb : Vec F S128x128 .f32) : FVec F S128x128 .f32 :=
  absf (subf (shapeCast S128x128 pb shapeCasts_S128x128_S128x128)
    (broadcastTo S128x128 (shapeCast S1x128 xr shapeCasts_S1x128_S1x128) broadcasts_S1x128_S128x128))

/-- The chunk the body stores: exp(0 - the ten tiles added from the left), contracted on its first axis against `c`
    into a zero accumulator. -/
def chunk (c : Vec F S128x128 .f32) (x0 : Vec F S1x128 .f32) (p0 : Vec F S128x128 .f32) (x1 : Vec F S1x128 .f32) (p1 : Vec F S128x128 .f32) (x2 : Vec F S1x128 .f32) (p2 : Vec F S128x128 .f32) (x3 : Vec F S1x128 .f32) (p3 : Vec F S128x128 .f32) (x4 : Vec F S1x128 .f32) (p4 : Vec F S128x128 .f32) (x5 : Vec F S1x128 .f32) (p5 : Vec F S128x128 .f32) (x6 : Vec F S1x128 .f32) (p6 : Vec F S128x128 .f32) (x7 : Vec F S1x128 .f32) (p7 : Vec F S128x128 .f32) (x8 : Vec F S1x128 .f32) (p8 : Vec F S128x128 .f32) (x9 : Vec F S1x128 .f32) (p9 : Vec F S128x128 .f32) : FVec F S128x128 .f32 :=
  matmul dot_S128x128_S128x128_S128x128_0_0_1_1_n_n none
    (exp (subf (broadcast S128x128 (Scalar.ofBits .f32 0x00000000#32))
      (addf (addf (addf (addf (addf (addf (addf (addf (addf (term x0 p0) (term x1 p1)) (term x2 p2)) (term x3 p3)) (term x4 p4)) (term x5 p5)) (term x6 p6)) (term x7 p7)) (term x8 p8)) (term x9 p9))))
    c (constant S128x128 .f32 0x00000000#32)

/-- The first chunk's value as the body's named pure terms compose it is `chunk` of its loads. -/
example (c : Vec F S128x128 .f32) (x0 : Vec F S1x128 .f32) (p0 : Vec F S128x128 .f32) (x1 : Vec F S1x128 .f32) (p1 : Vec F S128x128 .f32) (x2 : Vec F S1x128 .f32) (p2 : Vec F S128x128 .f32) (x3 : Vec F S1x128 .f32) (p3 : Vec F S128x128 .f32) (x4 : Vec F S1x128 .f32) (p4 : Vec F S128x128 .f32) (x5 : Vec F S1x128 .f32) (p5 : Vec F S128x128 .f32) (x6 : Vec F S1x128 .f32) (p6 : Vec F S128x128 .f32) (x7 : Vec F S1x128 .f32) (p7 : Vec F S128x128 .f32) (x8 : Vec F S1x128 .f32) (p8 : Vec F S128x128 .f32) (x9 : Vec F S1x128 .f32) (p9 : Vec F S128x128 .f32) :
    k0_pay7 c (k0_pay4 (k0_pay1 x0 p0 x1 p1 x2 p2 x3 p3) (k0_pay2 p4) (k0_pay3 x4) x5 p5 x6 p6 x7 p7 x8 p8) (k0_pay5 p9) (k0_pay6 x9)
      = chunk c x0 p0 x1 p1 x2 p2 x3 p3 x4 p4 x5 p5 x6 p6 x7 p7 x8 p8 x9 p9 := rfl

end AnyInstance

/-! ## At the ideal instance, index by index -/

/-- A tile at (k, n): the table's entry there less the row's entry in lane n, in absolute value. -/
theorem term_apply (xr : Vec Ideal S1x128 .f32) (pb : Vec Ideal S128x128 .f32) (k n : Fin 128) :
    term (F := Ideal) xr pb (ix2 k n) = Cert.Tmk.eabs (pb (ix2 k n) - xr (ix2 0 n)) := by
  unfold term
  rw [shapeCast_self, shapeCast_self]
  have hb : broadcastTo S128x128 xr broadcasts_S1x128_S128x128 (ix2 k n) = xr (ix2 0 n) :=
    broadcastTo_apply xr broadcasts_S1x128_S128x128 (ix2 k n) (ix2 0 n) (fun a => by
      match a with
      | ⟨0, _⟩ => rfl
      | ⟨1, _⟩ => rfl)
  show Cert.Tmk.eabs (pb (ix2 k n) - broadcastTo S128x128 xr broadcasts_S1x128_S128x128 (ix2 k n)) = _
  rw [hb]

theorem lhs_contr (j : S128x128.Idx) (q : dot_S128x128_S128x128_S128x128_0_0_1_1_n_n.contr.Idx) :
    (dot_S128x128_S128x128_S128x128_0_0_1_1_n_n.lhsIdx j q 0).val = (q ⟨0, by decide⟩).val :=
  dot_S128x128_S128x128_S128x128_0_0_1_1_n_n.lhsIdx_val_of_single rfl j q
theorem lhs_free (j : S128x128.Idx) (q : dot_S128x128_S128x128_S128x128_0_0_1_1_n_n.contr.Idx) :
    (dot_S128x128_S128x128_S128x128_0_0_1_1_n_n.lhsIdx j q 1).val = (j 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhs_contr (j : S128x128.Idx) (q : dot_S128x128_S128x128_S128x128_0_0_1_1_n_n.contr.Idx) :
    (dot_S128x128_S128x128_S128x128_0_0_1_1_n_n.rhsIdx j q 0).val = (q ⟨0, by decide⟩).val :=
  dot_S128x128_S128x128_S128x128_0_0_1_1_n_n.rhsIdx_val_of_single rfl j q
theorem rhs_free (j : S128x128.Idx) (q : dot_S128x128_S128x128_S128x128_0_0_1_1_n_n.contr.Idx) :
    (dot_S128x128_S128x128_S128x128_0_0_1_1_n_n.rhsIdx j q 1).val = (j 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-- The contraction on the first axis of both operands into a zero accumulator, at (n, q): the sum over k of
    left[k, n] * right[k, q]. -/
theorem contract_apply (l r : FVec Ideal S128x128 .f32) (n q : Fin 128) :
    matmul dot_S128x128_S128x128_S128x128_0_0_1_1_n_n none l r (constant S128x128 .f32 0x00000000#32) (ix2 n q)
      = ∑ k : Fin 128, l (ix2 k n) * r (ix2 k q) := by
  refine (Ideal.matmul_constant_zero_apply dot_S128x128_S128x128_S128x128_0_0_1_1_n_n none l r (ix2 n q)).trans ?_
  rw [← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  have el : dot_S128x128_S128x128_S128x128_0_0_1_1_n_n.lhsIdx (ix2 n q) ((contrEquiv1 dot_S128x128_S128x128_S128x128_0_0_1_1_n_n 128 rfl rfl).symm k) = ix2 k n := funext fun a => Fin.ext (by
    match a with
    | ⟨0, _⟩ => exact (lhs_contr _ _).trans hk
    | ⟨1, _⟩ => exact lhs_free _ _)
  have er : dot_S128x128_S128x128_S128x128_0_0_1_1_n_n.rhsIdx (ix2 n q) ((contrEquiv1 dot_S128x128_S128x128_S128x128_0_0_1_1_n_n 128 rfl rfl).symm k) = ix2 k q := funext fun a => Fin.ext (by
    match a with
    | ⟨0, _⟩ => exact (rhs_contr _ _).trans hk
    | ⟨1, _⟩ => exact rhs_free _ _)
  rw [el, er]

/-- The chunk at (n, q). -/
theorem chunk_apply (c : Vec Ideal S128x128 .f32) (x0 : Vec Ideal S1x128 .f32) (p0 : Vec Ideal S128x128 .f32) (x1 : Vec Ideal S1x128 .f32) (p1 : Vec Ideal S128x128 .f32) (x2 : Vec Ideal S1x128 .f32) (p2 : Vec Ideal S128x128 .f32) (x3 : Vec Ideal S1x128 .f32) (p3 : Vec Ideal S128x128 .f32) (x4 : Vec Ideal S1x128 .f32) (p4 : Vec Ideal S128x128 .f32) (x5 : Vec Ideal S1x128 .f32) (p5 : Vec Ideal S128x128 .f32) (x6 : Vec Ideal S1x128 .f32) (p6 : Vec Ideal S128x128 .f32) (x7 : Vec Ideal S1x128 .f32) (p7 : Vec Ideal S128x128 .f32) (x8 : Vec Ideal S1x128 .f32) (p8 : Vec Ideal S128x128 .f32) (x9 : Vec Ideal S1x128 .f32) (p9 : Vec Ideal S128x128 .f32) (n q : Fin 128) :
    chunk (F := Ideal) c x0 p0 x1 p1 x2 p2 x3 p3 x4 p4 x5 p5 x6 p6 x7 p7 x8 p8 x9 p9 (ix2 n q)
      = ∑ k : Fin 128, Ideal.exp (-(Cert.Tmk.eabs (p0 (ix2 k n) - x0 (ix2 0 n)) + Cert.Tmk.eabs (p1 (ix2 k n) - x1 (ix2 0 n)) + Cert.Tmk.eabs (p2 (ix2 k n) - x2 (ix2 0 n)) + Cert.Tmk.eabs (p3 (ix2 k n) - x3 (ix2 0 n)) + Cert.Tmk.eabs (p4 (ix2 k n) - x4 (ix2 0 n)) + Cert.Tmk.eabs (p5 (ix2 k n) - x5 (ix2 0 n)) + Cert.Tmk.eabs (p6 (ix2 k n) - x6 (ix2 0 n)) + Cert.Tmk.eabs (p7 (ix2 k n) - x7 (ix2 0 n)) + Cert.Tmk.eabs (p8 (ix2 k n) - x8 (ix2 0 n)) + Cert.Tmk.eabs (p9 (ix2 k n) - x9 (ix2 0 n)))) * c (ix2 k q) := by
  unfold chunk
  rw [contract_apply]
  refine Finset.sum_congr rfl fun k _ => ?_
  refine congrArg (· * c (ix2 k q)) ?_
  show Ideal.exp (Ideal.ofBits .f32 0x00000000#32 - _) = _
  rw [Ideal.ofBits_zero_f32, zero_sub]
  simp only [addf_apply, term_apply]

end Cert.KernelIdeal.Hand

end
-- ==== Proof.Block.lean ====
/-
  What the body leaves in the output block, as ONE function of the three input blocks.

  The body handles its 2048 rows in sixteen chunks of 128. Chunk j reads, for each coordinate d, row d of the x^T block
  at lanes 128 j .. 128 j + 127 and rows 128 d .. 128 d + 127 of the table block, and stores `chunk` of them at rows
  128 j .. 128 j + 127 of the output block. The sixteen stores tile the block, and each is the same function of the
  block's index, `blockVal`: entry (r, q) is
      sum_k exp(-(sum_d |table[128 d + k, r mod 128] - xT[d, r]|)) * c[k, q].
-/
import proofs.«135612_g10067403342211_week1_w1_198_14_alg».proof.Proof.Gen.KernelIdeal.Frame
import proofs.«135612_g10067403342211_week1_w1_198_14_alg».proof.Proof.Chunk

set_option maxRecDepth 16384

noncomputable section

namespace Cert.KernelIdeal.Hand

open Cert.KernelIdeal Cert.KernelIdeal.Gen Idealize.ShloMosaic Idealize.ShloMosaic.ValueIdx

/-! ## The rectangles of chunk j -/

/-- Row d of the x^T block, lanes 128 j .. 128 j + 127. -/
abbrev xrect (d : Fin 10) (j : Fin 16) : Rect S10x2048 :=
  Rect.unit (s := S10x2048) ![d.val, 128 * j.val] S1x128.size (Rect.inb₂
    (show d.val + 1 ≤ 10 by have := d.isLt; omega) (show 128 * j.val + 128 ≤ 2048 by have := j.isLt; omega))

/-- Rows 128 d .. 128 d + 127 of the table block. -/
abbrev prect (d : Fin 10) : Rect S1280x128 :=
  Rect.unit (s := S1280x128) ![128 * d.val, 0] S128x128.size (Rect.inb₂
    (show 128 * d.val + 128 ≤ 1280 by have := d.isLt; omega) (show 0 + 128 ≤ 128 by omega))

/-- Rows 128 j .. 128 j + 127 of the output block. -/
abbrev orect (j : Fin 16) : Rect S2048x128 :=
  Rect.unit (s := S2048x128) ![128 * j.val, 0] S128x128.size (Rect.inb₂
    (show 128 * j.val + 128 ≤ 2048 by have := j.isLt; omega) (show 0 + 128 ≤ 128 by omega))

section AnyInstance
variable {F : FTy → Type} [FloatOps F]

/-- What chunk j stores. -/
def chunkAt (x0 : Vec F S10x2048 .f32) (x1 : Vec F S1280x128 .f32) (x2 : Vec F S128x128 .f32) (j : Fin 16) :
    FVec F S128x128 .f32 :=
  chunk (View.ld x2 r0_0) (View.ld x0 (xrect 0 j)) (View.ld x1 (prect 0)) (View.ld x0 (xrect 1 j)) (View.ld x1 (prect 1)) (View.ld x0 (xrect 2 j)) (View.ld x1 (prect 2)) (View.ld x0 (xrect 3 j)) (View.ld x1 (prect 3)) (View.ld x0 (xrect 4 j)) (View.ld x1 (prect 4)) (View.ld x0 (xrect 5 j)) (View.ld x1 (prect 5)) (View.ld x0 (xrect 6 j)) (View.ld x1 (prect 6)) (View.ld x0 (xrect 7 j)) (View.ld x1 (prect 7)) (View.ld x0 (xrect 8 j)) (View.ld x1 (prect 8)) (View.ld x0 (xrect 9 j)) (View.ld x1 (prect 9))

/-- Chunk j's store as a piece of the output block. -/
def piece (x0 : Vec F S10x2048 .f32) (x1 : Vec F S1280x128 .f32) (x2 : Vec F S128x128 .f32) (j : Fin 16) :
    View.Piece (Elt F) S2048x128 .f32 := ⟨orect j, chunkAt x0 x1 x2 j⟩

/-- The sixteen stores, last first. -/
def pieces (x0 : Vec F S10x2048 .f32) (x1 : Vec F S1280x128 .f32) (x2 : Vec F S128x128 .f32) :
    List (View.Piece (Elt F) S2048x128 .f32) :=
  [piece x0 x1 x2 15, piece x0 x1 x2 14, piece x0 x1 x2 13, piece x0 x1 x2 12, piece x0 x1 x2 11, piece x0 x1 x2 10,
   piece x0 x1 x2 9, piece x0 x1 x2 8, piece x0 x1 x2 7, piece x0 x1 x2 6, piece x0 x1 x2 5, piece x0 x1 x2 4,
   piece x0 x1 x2 3, piece x0 x1 x2 2, piece x0 x1 x2 1, piece x0 x1 x2 0]

/-- The body's output buffer is the overlay of these sixteen pieces: the body's named pure terms, however the
    statement count cut them, compose to `chunk` of each chunk's loads. -/
theorem out0_3_eq_pieces (x0 : Vec F S10x2048 .f32) (x1 : Vec F S1280x128 .f32) (x2 : Vec F S128x128 .f32) :
    out0_3 x0 x1 x2 = View.canon (pieces x0 x1 x2) := rfl

end AnyInstance

/-! ## At the ideal instance -/

/-- The table row of design point k in coordinate d. -/
abbrev trow (d : Fin 10) (k : Fin 128) : Fin 1280 := ⟨128 * d.val + k.val, by have := d.isLt; have := k.isLt; omega⟩

/-- The lane a block row falls in. -/
abbrev lane (r : Fin 2048) : Fin 128 := ⟨r.val % 128, Nat.mod_lt _ (by decide)⟩

/-- Row 128 j + n of the block. -/
abbrev brow (j : Fin 16) (n : Fin 128) : Fin 2048 := ⟨128 * j.val + n.val, by have := j.isLt; have := n.isLt; omega⟩

/-- The output block as one function of the three input blocks. -/
def blockVal (x0 : Vec Ideal S10x2048 .f32) (x1 : Vec Ideal S1280x128 .f32) (x2 : Vec Ideal S128x128 .f32) :
    S2048x128.Idx → EReal :=
  fun i => ∑ k : Fin 128,
    Ideal.exp (-(∑ d : Fin 10, Cert.Tmk.eabs (x1 (ix2 (trow d k) (lane (i 0))) - x0 (ix2 d (i 0))))) * x2 (ix2 k (i 1))

theorem hz : (![0, 0] : Fin 2 → Nat) = fun _ => 0 := funext fun a => by fin_cases a <;> rfl

/-- A load of the x^T block through chunk j's row-d rectangle, at lane n. -/
theorem ld_x (x0 : Vec Ideal S10x2048 .f32) (d : Fin 10) (j : Fin 16) (n : Fin 128) :
    View.ld x0 (xrect d j) (ix2 0 n) = x0 (ix2 d (brow j n)) := by
  show x0 ((xrect d j).idx (ix2 0 n)) = _
  refine congrArg x0 (funext fun a => Fin.ext ?_)
  match a with
  | ⟨0, _⟩ => show d.val + 1 * 0 = d.val; omega
  | ⟨1, _⟩ => show 128 * j.val + 1 * n.val = 128 * j.val + n.val; omega

/-- A load of the table block through coordinate d's rectangle, at (k, n). -/
theorem ld_p (x1 : Vec Ideal S1280x128 .f32) (d : Fin 10) (k n : Fin 128) :
    View.ld x1 (prect d) (ix2 k n) = x1 (ix2 (trow d k) n) := by
  show x1 ((prect d).idx (ix2 k n)) = _
  refine congrArg x1 (funext fun a => Fin.ext ?_)
  match a with
  | ⟨0, _⟩ => show 128 * d.val + 1 * k.val = 128 * d.val + k.val; omega
  | ⟨1, _⟩ => show 0 + 1 * n.val = n.val; omega

/-- Chunk j's rectangle places its (n, q) at row 128 j + n, column q of the block. -/
theorem orect_emb (j : Fin 16) (n q : Fin 128) : (orect j).emb (ix2 n q) = ix2 (brow j n) q :=
  funext fun a => Fin.ext (by
    match a with
    | ⟨0, _⟩ => show 128 * j.val + 1 * n.val = 128 * j.val + n.val; omega
    | ⟨1, _⟩ => show 0 + 1 * q.val = q.val; omega)

theorem lane_brow (j : Fin 16) (n : Fin 128) : lane (brow j n) = n :=
  Fin.ext (by show (128 * j.val + n.val) % 128 = n.val; have := n.isLt; omega)

/-- Each chunk's store is `blockVal` on its rows. -/
theorem chunkAt_eq (x0 : Vec Ideal S10x2048 .f32) (x1 : Vec Ideal S1280x128 .f32) (x2 : Vec Ideal S128x128 .f32)
    (j : Fin 16) (y : (orect j).shape.Idx) :
    chunkAt x0 x1 x2 j y = blockVal x0 x1 x2 ((orect j).emb y) := by
  obtain ⟨n, q, rfl⟩ : ∃ (n q : Fin 128), y = ix2 n q := ⟨y 0, y 1, eq_ix2 y⟩
  rw [orect_emb]
  unfold chunkAt blockVal
  rw [chunk_apply, View.ld_unit_zero (S := S128x128) hz]
  refine Finset.sum_congr rfl fun k _ => ?_
  rw [ld_p x1 0 k n, ld_p x1 1 k n, ld_p x1 2 k n, ld_p x1 3 k n, ld_p x1 4 k n, ld_p x1 5 k n, ld_p x1 6 k n, ld_p x1 7 k n, ld_p x1 8 k n, ld_p x1 9 k n,
    ld_x x0 0 j n, ld_x x0 1 j n, ld_x x0 2 j n, ld_x x0 3 j n, ld_x x0 4 j n, ld_x x0 5 j n, ld_x x0 6 j n, ld_x x0 7 j n, ld_x x0 8 j n, ld_x x0 9 j n]
  show _ = Ideal.exp (-(∑ d : Fin 10, Cert.Tmk.eabs (x1 (ix2 (trow d k) (lane (brow j n))) - x0 (ix2 d (brow j n))))) * x2 (ix2 k q)
  rw [lane_brow, ← Cert.Tmk.fold10_eq_sum]

/-- Every one of the sixteen pieces is `blockVal` read through its rectangle. -/
theorem pieces_eq (x0 : Vec Ideal S10x2048 .f32) (x1 : Vec Ideal S1280x128 .f32) (x2 : Vec Ideal S128x128 .f32) :
    ∀ p ∈ pieces x0 x1 x2, ∀ y : p.1.shape.Idx, p.2 y = blockVal x0 x1 x2 (p.1.emb y) := by
  intro p hp
  simp only [pieces, List.mem_cons, List.not_mem_nil, or_false] at hp
  rcases hp with rfl | rfl | rfl | rfl | rfl | rfl | rfl | rfl | rfl | rfl | rfl | rfl | rfl | rfl | rfl | rfl <;>
    exact chunkAt_eq x0 x1 x2 _

/-- The sixteen pieces tile the block. -/
theorem pieces_cover (x0 : Vec Ideal S10x2048 .f32) (x1 : Vec Ideal S1280x128 .f32) (x2 : Vec Ideal S128x128 .f32)
    (y : S2048x128.Idx) : ∃ p ∈ pieces x0 x1 x2, y ∈ p.1.set :=
  cover0_3 (chunkAt x0 x1 x2 15) (chunkAt x0 x1 x2 14) (chunkAt x0 x1 x2 13) (chunkAt x0 x1 x2 12)
    (chunkAt x0 x1 x2 11) (chunkAt x0 x1 x2 10) (chunkAt x0 x1 x2 9) (chunkAt x0 x1 x2 8) (chunkAt x0 x1 x2 7)
    (chunkAt x0 x1 x2 6) (chunkAt x0 x1 x2 5) (chunkAt x0 x1 x2 4) (chunkAt x0 x1 x2 3) (chunkAt x0 x1 x2 2)
    (chunkAt x0 x1 x2 1) (chunkAt x0 x1 x2 0) y

/-- The body's output buffer is `blockVal` of its input blocks. -/
theorem out0_3_eq (x0 : Vec Ideal S10x2048 .f32) (x1 : Vec Ideal S1280x128 .f32) (x2 : Vec Ideal S128x128 .f32) :
    out0_3 x0 x1 x2 = blockVal x0 x1 x2 := by
  rw [out0_3_eq_pieces]
  funext y
  exact View.canon_apply_of_pieces (blockVal x0 x1 x2) (pieces x0 x1 x2) (pieces_eq x0 x1 x2) y (pieces_cover x0 x1 x2 y)

end Cert.KernelIdeal.Hand

end
-- ==== Proof.Whole.lean ====
/-
  From the blocks to the whole result array.

  The region finds x^T (the transpose of x, [10, N]) and the lane-replicated table ([1280, 128], row 128 d + k holding
  coordinate d of design point k in every lane), both made by host operations from the arguments, and c itself. Grid
  point t takes columns 2048 t .. 2048 t + 2047 of x^T, the whole table and the whole of c, and writes rows
  2048 t .. 2048 t + 2047 of the result. Reading `blockVal` of those blocks: table[128 d + k, lane] is p[k, d] whatever
  the lane, and xT[d, 2048 t + r] is x[2048 t + r, d]; with |p - x| = |x - p| the block is rows 2048 t .. of `Cert.Tmk.out`.
  The sixty-four blocks tile the array, so the array ends as `out` of the arguments.
-/
import proofs.«135612_g10067403342211_week1_w1_198_14_alg».proof.Proof.Gen.KernelIdeal.Value
import proofs.«135612_g10067403342211_week1_w1_198_14_alg».proof.Proof.Block
import Idealize.ShloMosaic.Lib.ValueLayout
import Idealize.ShloMosaic.Lib.StableHlo.Run
import Idealize.ShloMosaic.Lib.Tactic

set_option maxRecDepth 16384

noncomputable section

namespace Cert.KernelIdeal.Hand

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

/-- `blockVal` of three blocks that are, entry by entry, x^T at rows `row r`, the lane-replicated table of p, and c,
    is the result at row `row r`: the table's entry is p[k, d] in every lane, and |p - x| = |x - p|. -/
theorem blockVal_of (x0 : Vec Ideal S10x2048 .f32) (x1 : Vec Ideal S1280x128 .f32) (x2 : Vec Ideal S128x128 .f32)
    (X : S131072x10.Idx → EReal) (P : S128x10.Idx → EReal) (C : S128x128.Idx → EReal) (row : Fin 2048 → Fin 131072)
    (hx : ∀ (d : Fin 10) (r : Fin 2048), x0 (ix2 d r) = X (ix2 (row r) d))
    (hp : ∀ (d : Fin 10) (k n : Fin 128), x1 (ix2 (trow d k) n) = P (ix2 k d))
    (hc : ∀ (a b : Fin 128), x2 (ix2 a b) = C (ix2 a b)) (r : Fin 2048) (q : Fin 128) :
    blockVal x0 x1 x2 (ix2 r q) = Cert.Tmk.outAt X P C (row r) q := by
  unfold blockVal Cert.Tmk.outAt Cert.Tmk.dist
  refine Finset.sum_congr rfl fun k _ => ?_
  show Ideal.exp (-(∑ d : Fin 10, Cert.Tmk.eabs (x1 (ix2 (trow d k) (lane r)) - x0 (ix2 d r)))) * x2 (ix2 k q) = _
  rw [hc]
  refine congrArg (fun z => Ideal.exp (-z) * C (ix2 k q)) (Finset.sum_congr rfl fun d _ => ?_)
  rw [hp, hx, Cert.Tmk.eabs_sub_comm]

variable (m : (ℓ : Loc nD τ sig) → Buf (Elt Ideal) ℓ) (ρ : Dev nD → PrngReg)

/-- The three arguments as launched. -/
abbrev argX (c : Dev nD) : S131072x10.Idx → EReal := m ((c : Thread nD τ).loc main_arg0)
abbrev argP (c : Dev nD) : S128x10.Idx → EReal := m ((c : Thread nD τ).loc main_arg1)
abbrev argC (c : Dev nD) : S128x128.Idx → EReal := m ((c : Thread nD τ).loc main_arg2)

/-! ## The arrays the host operations make -/

/-- x^T as the region finds it. -/
theorem V_xT (c : Dev nD) : (V m c main_v0 : S10x131072.Idx → EReal)
    = transpose S10x131072 [1, 0] (argX m c) transposes_S131072x10_S10x131072_1_0 := by
  dsimp only [Gen.V, Gen.hostOps0]; after_results

/-- The table as the region finds it: p transposed, given a unit lane axis, repeated over 128 lanes, flattened. -/
theorem V_table (c : Dev nD) : (V m c main_v4 : S1280x128.Idx → EReal)
    = shapeCast S1280x128 (broadcastInDim S10x128x128 ![0, 1, 2] bcast_S10x128x1_S10x128x128_0_1_2
        (broadcastInDim S10x128x1 ![0, 1] bcast_S10x128_S10x128x1_0_1
          (transpose S10x128 [1, 0] (argP m c) transposes_S128x10_S10x128_1_0))) shapeCasts_S10x128x128_S1280x128 := by
  dsimp only [Gen.V, Gen.hostOps0]; after_results; rfl

/-- xT[d, r] = x[r, d]. -/
theorem xT_apply (c : Dev nD) (d : Fin 10) (r : Fin 131072) :
    (V m c main_v0 : S10x131072.Idx → EReal) (ix2 d r) = argX m c (ix2 r d) := by
  rw [V_xT]; exact transpose_ix2_apply _ _ d r

/-- table[128 d + k, n] = p[k, d], in every lane n. -/
theorem table_apply (c : Dev nD) (d : Fin 10) (k n : Fin 128) :
    (V m c main_v4 : S1280x128.Idx → EReal) (ix2 (trow d k) n) = argP m c (ix2 k d) := by
  rw [V_table]
  refine (shapeCast_apply _ _ (ix2 (trow d k) n) (ix3 d k n) ?_).trans ?_
  · rw [Shape.rowMajor_val_three, Shape.rowMajor_val_two]
    show (d.val * 128 + k.val) * 128 + n.val = (128 * d.val + k.val) * 128 + n.val
    omega
  refine (broadcastInDim_apply _ _ _ (ix3 d k n) (ix3 d k (0 : Fin 1)) (fun a => ?_)).trans ?_
  · match a with
    | ⟨0, _⟩ => show d.val = if (10 : Nat) = 1 then 0 else d.val; rw [if_neg (by decide)]
    | ⟨1, _⟩ => show k.val = if (128 : Nat) = 1 then 0 else k.val; rw [if_neg (by decide)]
    | ⟨2, _⟩ => show 0 = if (1 : Nat) = 1 then 0 else n.val; rw [if_pos rfl]
  refine (broadcastInDim_apply _ _ _ (ix3 d k (0 : Fin 1)) (ix2 d k) (fun a => ?_)).trans ?_
  · match a with
    | ⟨0, _⟩ => show d.val = if (10 : Nat) = 1 then 0 else d.val; rw [if_neg (by decide)]
    | ⟨1, _⟩ => show k.val = if (128 : Nat) = 1 then 0 else k.val; rw [if_neg (by decide)]
  exact transpose_ix2_apply _ _ d k

/-! ## The blocks at grid point t -/

/-- Where each window's block sits at point t: x^T moves along its columns with t, the table and c stay, the result
    moves along its rows with t (decided over the sixty-four points). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row 2048 t + r of the arrays with N rows. -/
abbrev arow (t : Fin cfg0.N) (r : Fin 2048) : Fin 131072 :=
  ⟨2048 * t.val + r.val, by have h : t.val < 64 := lt_of_lt_of_eq t.isLt N_0; have := r.isLt; omega⟩

/-- The x^T block at point t: columns 2048 t .. of x^T. -/
theorem iblk_x (c : Dev nD) (t : Fin cfg0.N) (d : Fin 10) (r : Fin 2048) :
    (iblk m c 0 t : Vec Ideal S10x2048 .f32) (ix2 d r) = (V m c main_v0 : S10x131072.Idx → EReal) (ix2 d (arow t r)) := by
  obtain ⟨e0, e1, -⟩ := idx_facts t
  unfold iblk
  rw [View.read_apply]
  show (V m c main_v0 : S10x131072.Idx → EReal) _ = _
  congr 1
  funext a
  apply Fin.ext
  match a with
  | ⟨0, _⟩ => show win0_0.index t (0 : Fin 2) * 10 + 1 * d.val = d.val; rw [e0]; omega
  | ⟨1, _⟩ => show win0_0.index t (1 : Fin 2) * 2048 + 1 * r.val = 2048 * t.val + r.val; rw [e1]; omega

/-- The table block at any point is the whole table. -/
theorem iblk_p (c : Dev nD) (t : Fin cfg0.N) (a : Fin 1280) (b : Fin 128) :
    (iblk m c 1 t : Vec Ideal S1280x128 .f32) (ix2 a b) = (V m c main_v4 : S1280x128.Idx → EReal) (ix2 a b) := by
  obtain ⟨-, -, e2, e3, -⟩ := idx_facts t
  unfold iblk
  rw [View.read_apply]
  show (V m c main_v4 : S1280x128.Idx → EReal) _ = _
  congr 1
  funext z
  apply Fin.ext
  match z with
  | ⟨0, _⟩ => show win0_1.index t (0 : Fin 2) * 1280 + 1 * a.val = a.val; rw [e2]; omega
  | ⟨1, _⟩ => show win0_1.index t (1 : Fin 2) * 128 + 1 * b.val = b.val; rw [e3]; omega

/-- The c block at any point is the whole of c. -/
theorem iblk_c (c : Dev nD) (t : Fin cfg0.N) (a b : Fin 128) :
    (iblk m c 2 t : Vec Ideal S128x128 .f32) (ix2 a b) = argC m c (ix2 a b) := by
  obtain ⟨-, -, -, -, e4, e5, -⟩ := idx_facts t
  unfold iblk
  rw [View.read_apply]
  show (V m c main_arg2 : S128x128.Idx → EReal) _ = _
  rw [V_main_arg2]
  congr 1
  funext z
  apply Fin.ext
  match z with
  | ⟨0, _⟩ => show win0_2.index t (0 : Fin 2) * 128 + 1 * a.val = a.val; rw [e4]; omega
  | ⟨1, _⟩ => show win0_2.index t (1 : Fin 2) * 128 + 1 * b.val = b.val; rw [e5]; omega

/-- The body's block at point t, at (r, q), is the result at row 2048 t + r, column q. -/
theorem blockVal_iblk (c : Dev nD) (t : Fin cfg0.N) (r : Fin 2048) (q : Fin 128) :
    blockVal (iblk m c 0 t) (iblk m c 1 t) (iblk m c 2 t) (ix2 r q)
      = Cert.Tmk.outAt (argX m c) (argP m c) (argC m c) (arow t r) q :=
  blockVal_of (iblk m c 0 t) (iblk m c 1 t) (iblk m c 2 t) (argX m c) (argP m c) (argC m c) (arow t)
    (fun d r => (iblk_x m c t d r).trans (xT_apply m c d (arow t r)))
    (fun d k n => (iblk_p m c t (trow d k) n).trans (table_apply m c d k n))
    (fun a b => iblk_c m c t a b) r q

/-! ## The result array -/

/-- What point t writes back is rows 2048 t .. 2048 t + 2047 of `out` of the arguments. -/
theorem flushed_eq (c : Dev nD) (t : Fin cfg0.N) :
    (dats m 0 c).flushed 3 t
      = ((cfg0.win 3).blk t).view.read (Elt Ideal) (Cert.Tmk.out (argX m c) (argP m c) (argC m c)) := by
  rw [Value.flushed3, out0_3_eq]
  obtain ⟨-, -, -, -, -, -, e6, e7⟩ := idx_facts t
  refine funext fun (j : S2048x128.Idx) => ?_
  show blockVal (iblk m c 0 t) (iblk m c 1 t) (iblk m c 2 t) j
    = Cert.Tmk.out (argX m c) (argP m c) (argC m c) (((cfg0.win 3).blk t).view.emb j)
  obtain ⟨r, q, rfl⟩ : ∃ (r : Fin 2048) (q : Fin 128), j = ix2 r q := ⟨j 0, j 1, eq_ix2 j⟩
  have he : ((cfg0.win 3).blk t).view.emb (ix2 r q) = ix2 (arow t r) q := funext fun a => Fin.ext (by
    match a with
    | ⟨0, _⟩ => show win0_3.index t (0 : Fin 2) * 2048 + 1 * r.val = 2048 * t.val + r.val; rw [e6]; omega
    | ⟨1, _⟩ => show win0_3.index t (1 : Fin 2) * 128 + 1 * q.val = q.val; rw [e7]; omega)
  rw [he, Cert.Tmk.out_ix2, blockVal_iblk]

/-- An index of the result array is in point t's block iff each coordinate is in the block's range on its axis. -/
theorem mem_blk (t : Fin cfg0.N) (i : S131072x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v5).slice (win0_3.rect t)).set ↔ _
  rw [View.set_slice_whole, Rect.mem_set_unit]
  exact Iff.rfl

/-- Every index of the result array is in some point's block: row i0 is in block i0 / 2048. -/
theorem cover (i : S131072x128.Idx) :
    ∃ t : Fin cfg0.N, (cfg0.win 3).flush t = true ∧ i ∈ ((cfg0.win 3).blk t).view.set := by
  have h0 : (i 0).val < 131072 := (i 0).isLt
  have h1 : (i 1).val < 128 := (i 1).isLt
  have hN : cfg0.N = 64 := N_0
  have ht : (i 0).val / 2048 < cfg0.N := by rw [hN]; omega
  obtain ⟨-, -, -, -, -, -, e6, e7⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 128 ≤ (i 1).val
      ∧ (i 1).val < win0_3.index ⟨(i 0).val / 2048, ht⟩ (1 : Fin 2) * 128 + 128
    rw [e7]; omega

/-- The result array after the run is `out` of the arguments. -/
theorem final (c : Dev nD) :
    (dats m 0 c).arrAt 3 cfg0.N = Cert.Tmk.out (argX m c) (argP m c) (argC m c) :=
  (dats m 0 c).arrAt_eq_of_cover 3 (Cert.Tmk.out (argX m c) (argP m c) (argC m c)) (fun t _ => flushed_eq m c t) cover

/-- The run, read: the result array at `out` of the arguments, the arguments unchanged. -/
theorem run : θ_run defs (onTc (τ := τ) (main (F := Ideal))) ⟨m, fun _ => 0, ρ⟩ fun r => ∀ c : Dev nD,
      r.2.mem ((c : Thread nD τ).loc main_v5) = Cert.Tmk.out (argX m c) (argP m c) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Hand

end
-- ==== Proof.lean ====
/-
  The kernel and the reference compute the same array over the extended reals.

  Both are the product Laplace kernel matrix of the points x (N x 10) against the design points p (128 x 10), times c:
      out[n, q] = sum_k exp(-(sum_d |x[n, d] - p[k, d]|)) * c[k, q].
  The reference forms the N x 128 x 10 array of differences x - p, takes absolute values, sums the last axis from 0,
  negates, divides by 1.0, exponentiates and multiplies by c. The kernel works on 2048 rows at a time in sixteen chunks
  of 128: for a chunk it builds the TRANSPOSED kernel matrix, entry (k, n) = exp(0 - (|p[k, 0] - x[n, 0]| + ... +
  |p[k, 9] - x[n, 9]|)), the ten terms added from the left, reading p from a lane-replicated table and x from x^T (both
  made by transposes, broadcasts and a reshape outside the call), and contracts its first axis against c.
  Nothing here needs the inputs to be finite: |a - b| = |b - a| holds for every pair of extended reals, sums of extended
  reals may be regrouped freely, 0 - t = -t, and t / 1 = t at the infinities too (Proof/TmkSpec.lean). The reference's
  side is read in Proof/RefValue.lean; the kernel's, from one chunk (Proof/Chunk.lean) to the body's block
  (Proof/Block.lean) to the whole array (Proof/Whole.lean).
  The kernel's idealization rewrote nothing, so `preserves` has nothing to state; the three frames are the generated
  runs.
-/
import proofs.«135612_g10067403342211_week1_w1_198_14_alg».proof.Defs
import proofs.«135612_g10067403342211_week1_w1_198_14_alg».proof.Proof.Gen.Kernel
import proofs.«135612_g10067403342211_week1_w1_198_14_alg».proof.Proof.Gen.Kernel.Skeleton
import proofs.«135612_g10067403342211_week1_w1_198_14_alg».proof.Proof.Gen.Kernel.Launch
import proofs.«135612_g10067403342211_week1_w1_198_14_alg».proof.Proof.Gen.Kernel.Points
import proofs.«135612_g10067403342211_week1_w1_198_14_alg».proof.Proof.Gen.Kernel.Frame
import proofs.«135612_g10067403342211_week1_w1_198_14_alg».proof.Proof.Gen.KernelIdeal
import proofs.«135612_g10067403342211_week1_w1_198_14_alg».proof.Proof.Gen.KernelIdeal.Skeleton
import proofs.«135612_g10067403342211_week1_w1_198_14_alg».proof.Proof.Gen.KernelIdeal.Launch
import proofs.«135612_g10067403342211_week1_w1_198_14_alg».proof.Proof.Gen.KernelIdeal.Points
import proofs.«135612_g10067403342211_week1_w1_198_14_alg».proof.Proof.Gen.KernelIdeal.Frame
import proofs.«135612_g10067403342211_week1_w1_198_14_alg».proof.Proof.Gen.ReferenceIdeal
import proofs.«135612_g10067403342211_week1_w1_198_14_alg».proof.Proof.Gen.Pre_finite_inputs
import proofs.«135612_g10067403342211_week1_w1_198_14_alg».proof.Proof.Gen.KernelIdeal.Value
import proofs.«135612_g10067403342211_week1_w1_198_14_alg».proof.Proof.Gen.ReferenceIdeal.Run
import proofs.«135612_g10067403342211_week1_w1_198_14_alg».proof.Proof.Gen.ReferenceIdeal.Read
import proofs.«135612_g10067403342211_week1_w1_198_14_alg».proof.Proof.RefValue
import proofs.«135612_g10067403342211_week1_w1_198_14_alg».proof.Proof.Whole
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `Cert.Tmk.out` of the (agreeing) arguments. -/
theorem algebraic : Cert.algebraic_KernelIdeal_ReferenceIdeal := by
  intro m ρ m' ρ' _ hagree
  refine ⟨fun c => Cert.Tmk.out (Cert.KernelIdeal.Hand.argX m c) (Cert.KernelIdeal.Hand.argP m c)
    (Cert.KernelIdeal.Hand.argC m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
